-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192x8192 : Shape := ⟨2, ![8192, 8192]⟩
abbrev S1024x512 : Shape := ⟨2, ![1024, 512]⟩
abbrev S1024x1024 : Shape := ⟨2, ![1024, 1024]⟩
abbrev S512x1024 : Shape := ⟨2, ![512, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 2
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  transposes_S1024x512_p1_0_S512x1024 : S1024x512.Transposes [1, 0] S512x1024
  reduces_S1024x512_S1024 : S1024x512.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x8192 : Shape := ⟨2, ![512, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 19
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x8192, .f32⟩
  | .hbm, ⟨2, _⟩ => ⟨S8192x8192, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  transposes_S8192x512_S512x8192_1_0 : S8192x512.Transposes [1, 0] S512x8192
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.BitsTile.lean ====
/-
  One tile of the pairwise cosine distance, and the sixty-four tiles run one after another.

  The kernel walks an 8 × 8 grid. At point (i, j) it is handed rows 1024·i … 1024·i+1023 of the input matrix
  (its "a" rows) and rows 1024·j … 1024·j+1023 of the SAME matrix (its "b" rows), and writes the 1024 × 1024 tile
  (i, j) of the result: one function of those two row blocks. Nothing is carried from one point to the next.

  Both row windows read one array. Each is given half of the array's share, which is all a reader needs: the
  array is never written, so it ends as it began, and the result array, held outright, ends with every tile at
  what its point stored.
-/
import proofs.«103161_j15015205667291_1_alg».proof.Proof.Gen.Kernel.Launch
import proofs.«103161_j15015205667291_1_alg».proof.Proof.Gen.Kernel.Skeleton
import proofs.«103161_j15015205667291_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the grid starts -/

/-- The program is the grid and nothing else, so the grid finds every array as it was at the start. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`: for the two row windows, 1024 consecutive rows of the input matrix. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## One tile -/

abbrev rows : Rect S1024x512 := Rect.unit (s := S1024x512) ![0, 0] S1024x512.size inb_S1024x512_S1024x512_0_0
abbrev tile : Rect S1024x1024 := Rect.unit (s := S1024x1024) ![0, 0] S1024x1024.size inb_S1024x1024_S1024x1024_0_0

/-- What a point leaves in the result's buffer: the whole tile, computed from the two row blocks. -/
def tileOf (a : Vec F S1024x512 .f32) (b : Vec F S1024x512 .f32) : Vec F S1024x1024 .f32 :=
  View.canon [⟨tile, k0_pay1 (View.ld a rows) (View.ld b rows)⟩]

/-- The one store writes the whole buffer. -/
theorem tile_covers (p : Vec F S1024x1024 .f32) (y : S1024x1024.Idx) :
    ∃ pc ∈ ([⟨tile, p⟩] : List (View.Piece (Elt F) S1024x1024 .f32)), y ∈ pc.1.set :=
  View.cover_of_tiled [⟨tile, p⟩] S1024x1024.size (by rfl) y

set_option maxHeartbeats 1000000 in
/-- The body, given the two row blocks in its input buffers and anything in the result's buffer, leaves the inputs as
    they were and the result's buffer at the tile. (It loads the result's buffer once before storing; the loaded value
    is not used.) -/
theorem body_tile (c : Dev nD) (E : Set ℕ) (i : grid0.Coords) (arg2 : Memref sig .tc .vmem S1024x512 .f32) (harg2 : arg2.IsWhole)
    (arg3 : Memref sig .tc .vmem S1024x512 .f32) (harg3 : arg3.IsWhole) (arg4 : Memref sig .tc .vmem S1024x1024 .f32) (harg4 : arg4.IsWhole)
    (a : Vec F S1024x512 .f32) (b : Vec F S1024x512 .f32) (K : PUnit → sProp 𝕄) :
    iprop(owns (c : Thread nD τ) arg2 fullShare a ∗ owns (c : Thread nD τ) arg3 fullShare b ∗ (∃ d, owns (c : Thread nD τ) arg4 fullShare d)
        ∗ (iprop(owns (c : Thread nD τ) arg2 fullShare a ∗ owns (c : Thread nD τ) arg3 fullShare b ∗ owns (c : Thread nD τ) arg4 fullShare (tileOf a b)) -∗ K ⟨⟩))
      ⊢ wp frame (wpE (defs₀ (F := F)) Variants.none c none) E (cc0__cosine_kernel i arg2 harg2 arg3 harg3 arg4 harg4) K := by
  simp only [cc0__cosine_kernel_eq_skeleton]; unfold cc0__cosine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers _)

/-! ## The proof data -/

/-- An input window's buffer holds its block at every point, fetched there or not: where it is not fetched its block
    index has not moved, and the body left the block in place. -/
theorem found_rows_a {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found_rows_b {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The arrays as the grid finds them; after the body at point `t` each row window's buffer still at its block and the
    result's buffer at the tile of the two blocks; between points nothing but the core's other scoped buffers (there are
    none); nothing owed. The input matrix is read through two windows: the first holds the left half of its share, the
    second the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileOf (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_a (c : Dev nD) (t : Fin cfg0.N) : (dats m 0 c).after 0 t = iblk m c 0 t := by dsimp only [dats]
theorem after_b (c : Dev nD) (t : Fin cfg0.N) : (dats m 0 c).after 1 t = iblk m c 1 t := by dsimp only [dats]
theorem after_out (c : Dev nD) (t : Fin cfg0.N) : (dats m 0 c).after 2 t = tileOf (iblk m c 0 t) (iblk m c 1 t) := by dsimp only [dats]

theorem before_a (c : Dev nD) (t : Fin cfg0.N) (d) : (dats m 0 c).before 0 t d = iblk m c 0 t :=
  found_rows_a m (dats m 0 c) (A_eq m c 0) (after_a m c) t d
theorem before_b (c : Dev nD) (t : Fin cfg0.N) (d) : (dats m 0 c).before 1 t d = iblk m c 1 t :=
  found_rows_b m (dats m 0 c) (A_eq m c 1) (after_b m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the row windows' buffers hold their blocks, so the body leaves the tile; what is held between points
    passes through untouched. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_a, before_b]
  rw [show (dats m 0 c).Φ t.succ = (dats m 0 c).Φ t.castSucc from rfl,
    show (dats m 0 c).owesAt () t.succ = (dats m 0 c).owesAt () t.castSucc from rfl,
    after_a, after_b, after_out]
  iintro ⟨HΦ, Ho, ⟨%d0, H0⟩, ⟨%d1, H1⟩, ⟨%d2, H2⟩⟩
  iapply (body_tile c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact body_at m c t

/-! ## The input matrix's share dealt to its two readers -/

/-- The distinct buffers behind the three windows are two: the input matrix and the result array. -/
theorem bigSep_arrays {M : Type} [URA M] (Φ : Ref sig .tc → sProp M) :
    bigSep (Finset.univ.image (Pipeline.arrRef spec0)) Φ = iprop(Φ main_arg0 ∗ Φ main_v0) :=
  bigSep_eq_bigSepL_of_eq [main_arg0, main_v0] (by decide) (by decide) Φ

/-- At entry the grid holds the input matrix and the result array outright. The input matrix is handed to the first row
    window at the left half of its share and to the second at the right half, at the same contents; the result array
    goes to its window whole. -/
theorem deal_arrays (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_arrays, bigSep_W0]
  have e0 : (dats m 0 c).share 0 = fullShare.left := rfl
  have e1 : (dats m 0 c).share 1 = fullShare.right := rfl
  have e2 : (dats m 0 c).share 2 = fullShare := rfl
  rw [e0, e1, e2, (arr_whole0 0).set_eq_univ, (arr_whole0 2).set_eq_univ]
  iintro ⟨Ha, Ho⟩
  icases (pointsTo_share (PosShare.mem_left_op_right fullShare)).1 $$ Ha with ⟨Hl, Hr⟩
  isplitl [Hl]; · iexact Hl
  isplitl [Hr]; · iexact Hr
  iexact Ho

/-! ## The run -/

set_option backward.isDefEq.respectTransparency.types false in
/-- From any memory with zero counters every weakly fair execution of the program terminates, and at the end every
    window's array holds its entry contents overwritten by what each point wrote back: for the two row windows,
    which write nothing back, the input matrix as it was. -/
theorem run_main : θ_run defs (onTc (τ := τ) (main (F := F))) ⟨m, fun _ => 0, ρ⟩
    (fun r => ∀ c : Dev nD, ∀ w, r.2.mem (((cfg0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := deal_arrays m)
    (X := fun _ => iprop(emp)) (Y := fun _ => iprop(emp)) (Z := fun _ => iprop(emp))
    (hX := fun c => by
      rw [unscopedRest0_eq]
      iintro H; isplitl [H]; · iexact H
      iempintro)
    (hin := fun c => by
      dsimp only [dats]
      iintro ⟨-, H⟩; iexact H)
    (hout := fun c => by
      dsimp only [dats]
      iintro H; isplitr; · iempintro
      iexact H)
    (QY := fun _ _ => True)
    (hY := fun c s' => by
      iintro ⟨-, -, HSI⟩; imodintro
      isplitr; · ipureintro; trivial
      iexact HSI)
    (hQ := fun s h c w => (h c).1 w)

/-- The argument array ends unchanged: it is an input window's array, which no point writes back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (((dats m 0 c).arrAt_in 0 rfl _).trans (A_eq m c 0))) (run_main m ρ)

end Cert.Kernel.Tile

end
-- ==== Proof.IdealTile.lean ====
/-
  One tile of the pairwise cosine distance, and the sixty-four tiles run one after another.

  The kernel walks an 8 × 8 grid. At point (i, j) it is handed rows 1024·i … 1024·i+1023 of the input matrix
  (its "a" rows) and rows 1024·j … 1024·j+1023 of the SAME matrix (its "b" rows), and writes the 1024 × 1024 tile
  (i, j) of the result: one function of those two row blocks. Nothing is carried from one point to the next.

  Both row windows read one array. Each is given half of the array's share, which is all a reader needs: the
  array is never written, so it ends as it began, and the result array, held outright, ends with every tile at
  what its point stored.
-/
import proofs.«103161_j15015205667291_1_alg».proof.Proof.Gen.KernelIdeal.Launch
import proofs.«103161_j15015205667291_1_alg».proof.Proof.Gen.KernelIdeal.Skeleton
import proofs.«103161_j15015205667291_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the grid starts -/

/-- The program is the grid and nothing else, so the grid finds every array as it was at the start. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`: for the two row windows, 1024 consecutive rows of the input matrix. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## One tile -/

abbrev rows : Rect S1024x512 := Rect.unit (s := S1024x512) ![0, 0] S1024x512.size inb_S1024x512_S1024x512_0_0
abbrev tile : Rect S1024x1024 := Rect.unit (s := S1024x1024) ![0, 0] S1024x1024.size inb_S1024x1024_S1024x1024_0_0

/-- What a point leaves in the result's buffer: the whole tile, computed from the two row blocks. -/
def tileOf (a : Vec F S1024x512 .f32) (b : Vec F S1024x512 .f32) : Vec F S1024x1024 .f32 :=
  View.canon [⟨tile, k0_pay1 (View.ld a rows) (View.ld b rows)⟩]

/-- The one store writes the whole buffer. -/
theorem tile_covers (p : Vec F S1024x1024 .f32) (y : S1024x1024.Idx) :
    ∃ pc ∈ ([⟨tile, p⟩] : List (View.Piece (Elt F) S1024x1024 .f32)), y ∈ pc.1.set :=
  View.cover_of_tiled [⟨tile, p⟩] S1024x1024.size (by rfl) y

set_option maxHeartbeats 1000000 in
/-- The body, given the two row blocks in its input buffers and anything in the result's buffer, leaves the inputs as
    they were and the result's buffer at the tile. (It loads the result's buffer once before storing; the loaded value
    is not used.) -/
theorem body_tile (c : Dev nD) (E : Set ℕ) (i : grid0.Coords) (arg2 : Memref sig .tc .vmem S1024x512 .f32) (harg2 : arg2.IsWhole)
    (arg3 : Memref sig .tc .vmem S1024x512 .f32) (harg3 : arg3.IsWhole) (arg4 : Memref sig .tc .vmem S1024x1024 .f32) (harg4 : arg4.IsWhole)
    (a : Vec F S1024x512 .f32) (b : Vec F S1024x512 .f32) (K : PUnit → sProp 𝕄) :
    iprop(owns (c : Thread nD τ) arg2 fullShare a ∗ owns (c : Thread nD τ) arg3 fullShare b ∗ (∃ d, owns (c : Thread nD τ) arg4 fullShare d)
        ∗ (iprop(owns (c : Thread nD τ) arg2 fullShare a ∗ owns (c : Thread nD τ) arg3 fullShare b ∗ owns (c : Thread nD τ) arg4 fullShare (tileOf a b)) -∗ K ⟨⟩))
      ⊢ wp frame (wpE (defs₀ (F := F)) Variants.none c none) E (cc0__cosine_kernel i arg2 harg2 arg3 harg3 arg4 harg4) K := by
  simp only [cc0__cosine_kernel_eq_skeleton]; unfold cc0__cosine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers _)

/-! ## The proof data -/

/-- An input window's buffer holds its block at every point, fetched there or not: where it is not fetched its block
    index has not moved, and the body left the block in place. -/
theorem found_rows_a {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found_rows_b {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The arrays as the grid finds them; after the body at point `t` each row window's buffer still at its block and the
    result's buffer at the tile of the two blocks; between points nothing but the core's other scoped buffers (there are
    none); nothing owed. The input matrix is read through two windows: the first holds the left half of its share, the
    second the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileOf (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_a (c : Dev nD) (t : Fin cfg0.N) : (dats m 0 c).after 0 t = iblk m c 0 t := by dsimp only [dats]
theorem after_b (c : Dev nD) (t : Fin cfg0.N) : (dats m 0 c).after 1 t = iblk m c 1 t := by dsimp only [dats]
theorem after_out (c : Dev nD) (t : Fin cfg0.N) : (dats m 0 c).after 2 t = tileOf (iblk m c 0 t) (iblk m c 1 t) := by dsimp only [dats]

theorem before_a (c : Dev nD) (t : Fin cfg0.N) (d) : (dats m 0 c).before 0 t d = iblk m c 0 t :=
  found_rows_a m (dats m 0 c) (A_eq m c 0) (after_a m c) t d
theorem before_b (c : Dev nD) (t : Fin cfg0.N) (d) : (dats m 0 c).before 1 t d = iblk m c 1 t :=
  found_rows_b m (dats m 0 c) (A_eq m c 1) (after_b m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the row windows' buffers hold their blocks, so the body leaves the tile; what is held between points
    passes through untouched. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_a, before_b]
  rw [show (dats m 0 c).Φ t.succ = (dats m 0 c).Φ t.castSucc from rfl,
    show (dats m 0 c).owesAt () t.succ = (dats m 0 c).owesAt () t.castSucc from rfl,
    after_a, after_b, after_out]
  iintro ⟨HΦ, Ho, ⟨%d0, H0⟩, ⟨%d1, H1⟩, ⟨%d2, H2⟩⟩
  iapply (body_tile c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact body_at m c t

/-! ## The input matrix's share dealt to its two readers -/

/-- The distinct buffers behind the three windows are two: the input matrix and the result array. -/
theorem bigSep_arrays {M : Type} [URA M] (Φ : Ref sig .tc → sProp M) :
    bigSep (Finset.univ.image (Pipeline.arrRef spec0)) Φ = iprop(Φ main_arg0 ∗ Φ main_v0) :=
  bigSep_eq_bigSepL_of_eq [main_arg0, main_v0] (by decide) (by decide) Φ

/-- At entry the grid holds the input matrix and the result array outright. The input matrix is handed to the first row
    window at the left half of its share and to the second at the right half, at the same contents; the result array
    goes to its window whole. -/
theorem deal_arrays (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_arrays, bigSep_W0]
  have e0 : (dats m 0 c).share 0 = fullShare.left := rfl
  have e1 : (dats m 0 c).share 1 = fullShare.right := rfl
  have e2 : (dats m 0 c).share 2 = fullShare := rfl
  rw [e0, e1, e2, (arr_whole0 0).set_eq_univ, (arr_whole0 2).set_eq_univ]
  iintro ⟨Ha, Ho⟩
  icases (pointsTo_share (PosShare.mem_left_op_right fullShare)).1 $$ Ha with ⟨Hl, Hr⟩
  isplitl [Hl]; · iexact Hl
  isplitl [Hr]; · iexact Hr
  iexact Ho

/-! ## The run -/

set_option backward.isDefEq.respectTransparency.types false in
/-- From any memory with zero counters every weakly fair execution of the program terminates, and at the end every
    window's array holds its entry contents overwritten by what each point wrote back: for the two row windows,
    which write nothing back, the input matrix as it was. -/
theorem run_main : θ_run defs (onTc (τ := τ) (main (F := F))) ⟨m, fun _ => 0, ρ⟩
    (fun r => ∀ c : Dev nD, ∀ w, r.2.mem (((cfg0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := deal_arrays m)
    (X := fun _ => iprop(emp)) (Y := fun _ => iprop(emp)) (Z := fun _ => iprop(emp))
    (hX := fun c => by
      rw [unscopedRest0_eq]
      iintro H; isplitl [H]; · iexact H
      iempintro)
    (hin := fun c => by
      dsimp only [dats]
      iintro ⟨-, H⟩; iexact H)
    (hout := fun c => by
      dsimp only [dats]
      iintro H; isplitr; · iempintro
      iexact H)
    (QY := fun _ _ => True)
    (hY := fun c s' => by
      iintro ⟨-, -, HSI⟩; imodintro
      isplitr; · ipureintro; trivial
      iexact HSI)
    (hQ := fun s h c w => (h c).1 w)

/-- The argument array ends unchanged: it is an input window's array, which no point writes back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (((dats m 0 c).arrAt_in 0 rfl _).trans (A_eq m c 0))) (run_main m ρ)

end Cert.KernelIdeal.Tile

end
-- ==== Proof.Spec.lean ====
/-
  The cosine distance of two rows, as one formula on the extended reals.

  For rows u, v of 512 entries:  1 − (u · v) / max(‖u‖ · ‖v‖, ε),  where u · v = Σₖ uₖ vₖ,  ‖u‖ = √(Σₖ uₖ²), and ε is the
  float 9.99999993922529e-09 both programs spell with the same word. The division, the square root and the maximum are
  the exact ones; nothing here needs the entries to be finite, because both programs compute this very expression, in
  this order, and differ only in how they tile it.
-/
import Idealize.ShloMosaic.PureOps.Ideal
import Idealize.ShloMosaic.PureOps.Ideal.Laws
import Idealize.ShloMosaic.Lib.ValueIdx

noncomputable section

namespace Cert.CosineDistance

open Idealize.ShloMosaic Idealize.ShloMosaic.ValueIdx

/-- The inner product of two rows. -/
def dot (u v : Fin 512 → EReal) : EReal := ∑ k : Fin 512, u k * v k

/-- The Euclidean length of a row. -/
def len (u : Fin 512 → EReal) : EReal := Ideal.sqrt (dot u u)

/-- The cosine distance of two rows. -/
def cosd (u v : Fin 512 → EReal) : EReal :=
  Ideal.ofBits .f32 0x3F800000#32 - Ideal.div (dot u v) (max (len u * len v) (Ideal.ofBits .f32 0x322BCC77#32))

/-- Row `r` of a matrix with 512 columns. -/
def row {n : Nat} (x : (⟨2, ![n, 512]⟩ : Shape).Idx → EReal) (r : Fin n) : Fin 512 → EReal := fun k => x (ix2 r k)

/-- The pairwise distance matrix: entry (r, s) is the distance of rows r and s. -/
def pairwise (x : (⟨2, ![8192, 512]⟩ : Shape).Idx → EReal) : (⟨2, ![8192, 8192]⟩ : Shape).Idx → EReal :=
  fun i => cosd (row x (i 0)) (row x (i 1))

theorem pairwise_apply (x : (⟨2, ![8192, 512]⟩ : Shape).Idx → EReal) (r s : Fin 8192) :
    pairwise x (ix2 r s) = cosd (row x r) (row x s) := rfl

end Cert.CosineDistance

end
-- ==== Proof.LibKeepdims.lean ====
/-
  Reading a "keep the reduced axis" computation at an index.

  A row reduction that keeps its axis (a sum over the columns of an a × b array, kept as an a × 1 column) is printed as three
  layout steps around the sum: the sum itself, into a vector of length a; a cast of that vector to an a × 1 column; and
  a broadcast of the column back over b columns. Each is read here at an index written by its coordinates, for any
  extents. Together with the library's row forms (a 1 × b row broadcast over a rows, a matrix transposed) they read every
  such chain entry by entry.
-/
import Idealize.ShloMosaic.Lib.Pipeline.Value
import Idealize.ShloMosaic.Lib.ValueIdx
import Idealize.ShloMosaic.Lib.ValueLayout
import Idealize.ShloMosaic.PureOps.Ideal.Laws

noncomputable section

namespace Cert.KeepdimsLib

open Idealize.ShloMosaic Idealize.ShloMosaic.ValueIdx

variable {α : Type}

/-- A vector of length `a` cast to an `a × 1` column reads, at `(i, u)`, the vector at `i`: both have row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast over `b` columns reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of an `a × b` array that lies over row `p` of the reduced vector at column `k` is `(p, k)`. -/
theorem lift_row {a b : ℕ} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- On the extended reals a sum over the columns of an `a × b` array, read at row `p`, is the sum of that row's `b`
    entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_row h p k)

/-- A square root taken entry by entry. -/
theorem sqrt_apply {s : Shape} {φ : FTy} (v : FVec Ideal s φ) (i : s.Idx) : sqrt v i = Ideal.sqrt (v i) := rfl

end Cert.KeepdimsLib

end
-- ==== Proof.TileValue.lean ====
/-
  One tile, entry by entry.

  The body's one stored value, read at (p, q), is the cosine distance of row p of its first row block and row q of its
  second. The matrix product into a zero accumulator is the rows' inner product (the narrowing of the operands to
  sixteen bits is the identity on the extended reals, and the second operand is read transposed); each row block's sum
  of squares, kept as a column, square-rooted, and — for the second block — transposed into a row, is that row's
  length; the rest is entry by entry.
-/
import proofs.«103161_j15015205667291_1_alg».proof.Proof.Gen.KernelIdeal.Skeleton
import proofs.«103161_j15015205667291_1_alg».proof.Proof.Spec
import proofs.«103161_j15015205667291_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TileValue

open Cert.KernelIdeal Cert.KernelIdeal.Gen Cert.CosineDistance Cert.KeepdimsLib
open Idealize.ShloMosaic Idealize.ShloMosaic.ValueIdx

/-! ## The matrix product's operand indices -/

theorem lhs_axis0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_axis1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_axis0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_axis1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product of the first block with the transposed second block, into zero, read at (p, q): the inner product of row
    p of the first and row q of the second. -/
theorem product_apply (a b : FVec Ideal S1024x512 .f32) (p q : Fin 1024) :
    matmul dot_S1024x512_S512x1024_S1024x1024_1_0_0_1_n_n none (truncf .bf16 a bitsLt_bf16_f32)
        (transpose S512x1024 [1, 0] (truncf .bf16 b bitsLt_bf16_f32) transposes_S1024x512_p1_0_S512x1024)
        (constant S1024x1024 .f32 0x00000000#32) (ix2 p q)
      = dot (row a p) (row b q) := by
  simp only [matmul]
  rw [Ideal.matmul_constant_zero_apply, ← Equiv.sum_comp (contrEquiv1 dot_S1024x512_S512x1024_S1024x1024_1_0_0_1_n_n 512 rfl rfl).symm]
  unfold dot
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun c => Fin.ext (by
    match c with
    | ⟨0, _⟩ => exact lhs_axis0 _ _
    | ⟨1, _⟩ => exact (lhs_axis1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun c => Fin.ext (by
    match c with
    | ⟨0, _⟩ => exact (rhs_axis0 _ _).trans hk
    | ⟨1, _⟩ => exact rhs_axis1 _ _)
  rw [el, er, transpose_ix2_apply]
  rfl

/-- A row block's sum of squares, kept as a column and square-rooted, read at (p, 0): the length of row p. -/
theorem length_apply (v : FVec Ideal S1024x512 .f32) (p : Fin 1024) :
    sqrt (shapeCast S1024x1 (multiReduction .add [1] S1024 (mulf v v) 0x00000000#32 reduces_S1024x512_S1024 (.inl rfl) rfl) shapeCasts_S1024_S1024x1) (ix2 p (0 : Fin 1))
      = len (row v p) := by
  rw [sqrt_apply, shapeCast_a_a1_apply]
  exact congrArg Ideal.sqrt (rowSum_apply (mulf v v) 0x00000000#32 reduces_S1024x512_S1024 (.inl rfl) rfl p)

/-- The stored value at (p, q). -/
theorem payload_apply (a b : FVec Ideal S1024x512 .f32) (p q : Fin 1024) :
    k0_pay1 (F := Ideal) a b (ix2 p q) = cosd (row a p) (row b q) := by
  unfold k0_pay1 cosd
  dsimp only
  rw [subf_apply, divf_apply, maximumf_apply, mulf_apply, broadcast_apply, broadcast_apply, product_apply,
    broadcastTo_a1_ab_apply, length_apply, broadcastTo_1b_ab_apply, transpose_ix2_apply, length_apply]
  rfl

end Cert.KernelIdeal.TileValue

end
-- ==== Proof.IdealWhole.lean ====
/-
  From tiles to the whole distance matrix.

  Point t = (i, j) of the 8 × 8 grid reads rows 1024·i … of the input as its first block and rows 1024·j … as its second,
  and writes back tile (i, j) of the result. Entry (p, q) of that tile is the distance of row p of the first block and
  row q of the second, that is, of rows 1024·i + p and 1024·j + q of the input: entry (1024·i + p, 1024·j + q) of the
  pairwise distance matrix. So each point writes back its tile of ONE matrix, the sixty-four tiles cover the 8192 × 8192
  result (the tile holding entry (r, s) is (r / 1024, s / 1024)), and the result ends as the pairwise distance matrix of
  the input, which itself is never written.
-/
import proofs.«103161_j15015205667291_1_alg».proof.Proof.IdealTile
import proofs.«103161_j15015205667291_1_alg».proof.Proof.TileValue
import proofs.«103161_j15015205667291_1_alg».proof.Proof.Spec
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Tile Cert.KernelIdeal.TileValue Cert.CosineDistance
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem origin : (![0, 0] : Fin 2 → Nat) = fun _ => 0 := funext fun a => by fin_cases a <;> rfl

/-- Decided over the sixty-four points: the first row window sits at the tile's row of blocks, the second at the tile's
    column of blocks, both at column block 0; the tile's block indices are below 8. -/
theorem index_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every tile is some point's. -/
theorem index_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- What point `t` writes back is tile `t` of the pairwise distance matrix of the input as the grid finds it. -/
theorem written_eq (c : Dev nD) (t : Fin cfg0.N) :
    (dats m 0 c).flushed 2 t = ((cfg0.win 2).blk t).view.read (Elt Ideal) (pairwise (V m c main_arg0)) := by
  show (cfg0.win 2).cut (grid0.coords t) ((dats m 0 c).after 2 t) = _
  rw [after_out]
  unfold tileOf
  rw [View.canon_unit_zero origin]
  simp only [View.ld_unit_zero (S := S1024x512) origin]
  obtain ⟨e0, e1, e2, e3, e4, e5⟩ := index_facts t
  funext j
  obtain ⟨p, q, rfl⟩ : ∃ (p q : Fin 1024), j = ix2 p q := ⟨j 0, j 1, eq_ix2 j⟩
  show k0_pay1 (F := Ideal) (iblk m c 0 t) (iblk m c 1 t) (ix2 p q) = pairwise (V m c main_arg0) (((cfg0.win 2).blk t).view.emb (ix2 p q))
  refine (payload_apply (iblk m c 0 t) (iblk m c 1 t) p q).trans ?_
  have ha : row (iblk m c 0 t) p = row (n := 8192) (V m c main_arg0) ((((cfg0.win 2).blk t).view.emb (ix2 p q)) 0) := by
    funext k
    show V m c main_arg0 (((cfg0.win 0).blk t).view.emb (ix2 p k)) = V m c main_arg0 (ix2 _ k)
    refine congrArg _ (funext fun a => Fin.ext ?_)
    match a with
    | ⟨0, _⟩ => show win0_0.index t (0 : Fin 2) * 1024 + 1 * p.val = win0_2.index t (0 : Fin 2) * 1024 + 1 * p.val; omega
    | ⟨1, _⟩ => show win0_0.index t (1 : Fin 2) * 512 + 1 * k.val = k.val; omega
  have hb : row (iblk m c 1 t) q = row (n := 8192) (V m c main_arg0) ((((cfg0.win 2).blk t).view.emb (ix2 p q)) 1) := by
    funext k
    show V m c main_arg0 (((cfg0.win 1).blk t).view.emb (ix2 q k)) = V m c main_arg0 (ix2 _ k)
    refine congrArg _ (funext fun a => Fin.ext ?_)
    match a with
    | ⟨0, _⟩ => show win0_1.index t (0 : Fin 2) * 1024 + 1 * q.val = win0_2.index t (1 : Fin 2) * 1024 + 1 * q.val; omega
    | ⟨1, _⟩ => show win0_1.index t (1 : Fin 2) * 512 + 1 * k.val = k.val; omega
  rw [ha, hb]
  rfl

/-- An index of the result lies in point `t`'s tile iff each coordinate lies in the tile's range on its axis. -/
theorem mem_tile (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every entry of the result lies in the tile of some point that writes back: entry (r, s) in tile (r / 1024, s / 1024). -/
theorem tiles_cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := index_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run is the pairwise distance matrix of the input. -/
theorem result_final (c : Dev nD) : (dats m 0 c).arrAt 2 cfg0.N = pairwise (V m c main_arg0) :=
  (dats m 0 c).arrAt_eq_of_cover 2 (pairwise (V m c main_arg0)) (fun t _ => written_eq m c t) tiles_cover

/-- The input array is never written. -/
theorem input_kept (c : Dev nD) : (dats m 0 c).arrAt 0 cfg0.N = m ((c.tc : Thread nD τ).loc main_arg0) :=
  ((dats m 0 c).arrAt_in 0 rfl _).trans (A_eq m c 0)

/-- Every weakly fair execution of the idealized kernel terminates with the result array at the pairwise distance matrix
    of the input and the input unchanged. -/
theorem run : θ_run defs (onTc (τ := τ) (main (F := Ideal))) ⟨m, fun _ => 0, ρ⟩ fun r => ∀ c : Dev nD,
      r.2.mem ((c.tc : Thread nD τ).loc main_v0) = pairwise (m ((c.tc : Thread nD τ).loc main_arg0))
      ∧ r.2.mem ((c.tc : Thread nD τ).loc main_arg0) = m ((c.tc : Thread nD τ).loc main_arg0) :=
  (θ_run defs _ _).mono (fun r h c => ⟨(h c 2).trans (result_final m c), (h c 0).trans (input_kept m c)⟩)
    (run_main m ρ)

end Cert.KernelIdeal.Whole

end
-- ==== Proof.RefValue.lean ====
/-
  The reference computes the pairwise distance matrix.

  Read one operation at a time, entry (r, s) of the reference's result is 1 − (x_r · x_s) / max(‖x_r‖ · ‖x_s‖, ε): the
  matrix product of x with its transpose gives the inner product of rows r and s; the row norms, computed once as a
  vector and broadcast along the rows and along the columns, give ‖x_r‖ and ‖x_s‖ (the sum of squares starts from the
  zero word, which adds nothing).
-/
import proofs.«103161_j15015205667291_1_alg».proof.Proof.Gen.ReferenceIdeal.Read
import proofs.«103161_j15015205667291_1_alg».proof.Proof.Spec

noncomputable section

namespace Cert.ReferenceIdeal.RefValue

open Cert.ReferenceIdeal Cert.ReferenceIdeal.Gen Cert.ReferenceIdeal.Read Cert.CosineDistance
open Idealize.ShloMosaic Idealize.ShloMosaic.ValueIdx

/-- The reference's last stage is the pairwise distance matrix of its argument. -/
theorem result_is_pairwise (x : (⟨S8192x512, .f32⟩ : BufTy).Contents (Elt Ideal)) :
    val_main_v12 (F := Ideal) x = pairwise x := by
  funext i
  obtain ⟨r, s, rfl⟩ : ∃ (r s : Fin 8192), i = ix2 r s := ⟨i 0, i 1, eq_ix2 i⟩
  rw [pairwise_apply]
  have e1 : ∀ k : Fin 512, lidx_main_v1 (ix2 r s) k = ix2 r k := fun k => funext fun a => Fin.ext (by
    match a with | ⟨0, _⟩ => rfl | ⟨1, _⟩ => rfl)
  have e2 : ∀ k : Fin 512, idx_main_v0 (ridx_main_v1 (ix2 r s) k) = ix2 s k := fun k => funext fun a => Fin.ext (by
    match a with | ⟨0, _⟩ => rfl | ⟨1, _⟩ => rfl)
  have e3 : ∀ k : Fin 512, idx_main_call0_v1 (idx_main_v3 (idx_main_v5 (ix2 r s))) k = ix2 r k := fun k => funext fun a => Fin.ext (by
    match a with | ⟨0, _⟩ => rfl | ⟨1, _⟩ => rfl)
  have e4 : ∀ k : Fin 512, idx_main_call0_v1 (idx_main_v4 (idx_main_v6 (ix2 r s))) k = ix2 s k := fun k => funext fun a => Fin.ext (by
    match a with | ⟨0, _⟩ => rfl | ⟨1, _⟩ => rfl)
  rw [val_main_v12_apply, val_main_v11_apply, val_main_cst_0_apply, val_main_v10_apply, val_main_v1_apply, val_main_v9_apply,
    val_main_v7_apply, val_main_v8_apply, val_main_cst_apply, val_main_v5_apply, val_main_v3_apply, val_main_v2_apply,
    val_main_call0_v1_apply, val_main_v6_apply, val_main_v4_apply, val_main_v2_apply, val_main_call0_v1_apply,
    val_main_call0_cst_apply]
  simp only [val_main_v0_apply, val_main_call0_v0_apply, e1, e2, e3, e4, Ideal.subf_def, Ideal.hostDivf_def, Ideal.maximumf_def,
    Ideal.mulf_def, Ideal.hostUnary_sqrt_def, Ideal.ofBits_def, Ideal.ofBits_zero_f32, zero_add]
  rfl

end Cert.ReferenceIdeal.RefValue

end
-- ==== Proof.lean ====
/-
  The pairwise cosine distance of the rows of an 8192 × 512 matrix: a tiled kernel against a whole-array reference.

  Both programs compute, for every pair of rows (r, s),  1 − (x_r · x_s) / max(‖x_r‖ · ‖x_s‖, ε)  with the same ε, the
  same order of operations and the same constants. The kernel does it tile by tile on an 8 × 8 grid, each point reading
  two blocks of 1024 rows of the one input and writing one 1024 × 1024 tile; the reference does it on whole arrays. On
  the extended reals the matrix product into zero is the rows' inner product on both sides, a sum of squares is the same
  sum however it is laid out, and the narrowing of the product's operands is the identity; so the two results are equal
  entry by entry, and nothing about the entries being finite is needed.

  The three programs run to the end and leave the input as it was: the kernel's input is only ever read (its two row
  windows share it, each holding half of its share), and the reference is a straight line of host operations. The
  idealized kernel is the kernel's own text read on the extended reals; the idealization rewrote nothing.
-/
import proofs.«103161_j15015205667291_1_alg».proof.Defs
import proofs.«103161_j15015205667291_1_alg».proof.Proof.Gen.Kernel
import proofs.«103161_j15015205667291_1_alg».proof.Proof.Gen.KernelIdeal
import proofs.«103161_j15015205667291_1_alg».proof.Proof.Gen.ReferenceIdeal
import proofs.«103161_j15015205667291_1_alg».proof.Proof.Gen.Pre_finite_inputs
import proofs.«103161_j15015205667291_1_alg».proof.Proof.Gen.ReferenceIdeal.Run
import proofs.«103161_j15015205667291_1_alg».proof.Proof.Gen.ReferenceIdeal.Read
import proofs.«103161_j15015205667291_1_alg».proof.Proof.BitsTile
import proofs.«103161_j15015205667291_1_alg».proof.Proof.IdealTile
import proofs.«103161_j15015205667291_1_alg».proof.Proof.IdealWhole
import proofs.«103161_j15015205667291_1_alg».proof.Proof.RefValue
import Idealize.ShloMosaic.Adequacy
import Idealize.ShloMosaic.Init

noncomputable section

namespace Cert.Proof

open Idealize.ShloMosaic Idealize.SL.Sem

/-- The word-level kernel runs and leaves its input unchanged. -/
theorem frame_kernel : Cert.frame_Kernel := fun m ρ _ => Cert.Kernel.Tile.frame m ρ

/-- So does the kernel read on the extended reals. -/
theorem frame_kernel_ideal : Cert.frame_KernelIdeal := fun m ρ _ => Cert.KernelIdeal.Tile.frame m ρ

/-- The reference runs and leaves its input unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the input, the kernel's result array and the reference's both end at the pairwise
    distance matrix of that input. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_is_pairwise, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
